-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1024x512 : Shape := ⟨2, ![1024, 512]⟩
abbrev S1024x1024 : Shape := ⟨2, ![1024, 1024]⟩

abbrev nBuf : Space → Nat
  | .hbm => 25
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x512, .f32⟩
  | .hbm, ⟨21, _⟩ => ⟨S8192x512, .f32⟩
  | .hbm, ⟨22, _⟩ => ⟨S8192x512, .bf16⟩
  | .hbm, ⟨23, _⟩ => ⟨S8192x512, .bf16⟩
  | .hbm, ⟨24, _⟩ => ⟨S8192x8192, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v10) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x512, .f32⟩
  | .hbm, ⟨21, _⟩ => ⟨S8192x512, .f32⟩
  | .hbm, ⟨22, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.RowGram.lean ====
/-
  The mathematics both programs compute, stated once over literal shapes and no program.

  For a matrix `x` of 8192 rows and 512 columns, `unitRows x` divides each row by the larger of its
  Euclidean norm and a fixed positive floor: entry (i, k) is  x(i,k) / max(sqrt(Σ_l x(i,l)²), floor).
  For two such matrices `a`, `b`, `rowGram a b` is the matrix of inner products of their rows:
  entry (i, j) is  Σ_k a(i,k) · b(j,k).
  The cosine similarity of every row of `x` with every row of `y` is `rowGram (unitRows x) (unitRows y)`.

  `unitRows` is kept as ONE closed term of the elementwise and reduction operations: the two programs spell it
  with the same operations in the same order, so nothing about it is ever opened; only the inner products are
  read index by index.
-/
import Idealize.ShloMosaic.PureOps.Ideal
import Idealize.ShloMosaic.Lib.ValueIdx

noncomputable section

open scoped BigOperators

namespace Cert.CosineRows

open Idealize.ShloMosaic Idealize.ShloMosaic.ValueIdx

/-- 8192 rows of 512 entries. -/
abbrev Rows : Shape := ⟨2, ![8192, 512]⟩
/-- One number per row, as a vector and as a column. -/
abbrev PerRow : Shape := ⟨1, ![8192]⟩
abbrev Col : Shape := ⟨2, ![8192, 1]⟩
/-- A single number. -/
abbrev One : Shape := ⟨0, ![]⟩
/-- Every row against every row. -/
abbrev Pairs : Shape := ⟨2, ![8192, 8192]⟩

variable {F : FTy → Type} [FloatOps F]

/-- Each row divided by `max(‖row‖, floor)`: the squares summed along the row from zero, the root taken, the
    larger of it and the floor (the word `0x322BCC77`) spread back along the row, and the quotient. The shape
    relations the operations ask for are arguments, so that each program supplies its own evidence. -/
def unitRows (hsum : Rows.ReducesTo [1] PerRow) (hone : 0 < One.numel)
    (hcol : PerRow.BroadcastsInDim Col (![0] : Fin 1 → Fin Col.rank))
    (hfloor : One.BroadcastsInDim Col (![] : Fin 0 → Fin Col.rank))
    (hrow : Col.BroadcastsInDim Rows (![0, 1] : Fin 2 → Fin Rows.rank))
    (x : FVec F Rows .f32) : FVec F Rows .f32 :=
  Host.divf x (broadcastInDim Rows ![0, 1] hrow
    (maximumf (Host.sqrt (broadcastInDim Col ![0] hcol (Host.reduceAdd (mulf x x) (constant One .f32 0x00000000#32) hsum hone)))
      (broadcastInDim Col ![] hfloor (constant One .f32 0x322BCC77#32))))

/-- The inner products of the rows of `a` with the rows of `b`, on the extended reals. -/
def rowGram (a b : Rows.Idx → EReal) : Pairs.Idx → EReal :=
  fun i => ∑ k : Fin 512, a (ix2 (i 0) k) * b (ix2 (i 1) k)

theorem rowGram_apply (a b : Rows.Idx → EReal) (i : Pairs.Idx) :
    rowGram a b i = ∑ k : Fin 512, a (ix2 (i 0) k) * b (ix2 (i 1) k) := rfl

end Cert.CosineRows

end
-- ==== Proof.KernelTile.lean ====
/-
  One tile of the kernel, read at an index.

  At a grid point the body loads a block of 1024 rows of the first operand and a block of 1024 rows of the second
  (each row 512 long) and stores their matrix product, contracted over the row's 512 entries, started from zero.
  On the extended reals that product's entry (p, q) is the plain sum  Σ_k x0(p,k) · x1(q,k):  the zero start
  contributes nothing, and the product's own contraction index is its one coordinate.
-/
import proofs.«146786_j40200893890720_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The left operand is read at the output's row … -/
theorem lhs_row (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- … and at the contraction's coordinate along the row. -/
theorem lhs_col (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- The right operand is read at the output's COLUMN as its row … -/
theorem rhs_row (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- … and at the same contraction coordinate. -/
theorem rhs_col (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- Entry (p, q) of the tile the body stores is the inner product of row p of the first block with row q of the
    second. -/
theorem tile_apply (x0 x1 : FVec Ideal S1024x512 .bf16) (p q : Fin 1024) :
    k0_pay1 (F := Ideal) x0 x1 (ix2 p q) = ∑ k : Fin 512, x0 (ix2 p k) * x1 (ix2 q k) := by
  unfold k0_pay1
  simp only [shapeCast_self]
  refine (Ideal.matmul_constant_zero_apply dot_S1024x512_S1024x512_S1024x1024_1_1_0_0_n_n none x0 x1 (ix2 p q)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_row _ _
    | ⟨1, _⟩ => exact (lhs_col _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_row _ _
    | ⟨1, _⟩ => exact (rhs_col _ _).trans hk)
  rw [el, er]

end Cert.KernelIdeal.Tile

end
-- ==== Proof.KernelBlocks.lean ====
/-
  From tiles to the whole array.

  The grid is 8 × 8. At point (r, s) the first operand's block is rows 1024·r … 1024·r + 1023 of its array, the
  second operand's block rows 1024·s … 1024·s + 1023 of its array, and the output's block the square of rows
  1024·r … and columns 1024·s … . Entry (p, q) of the tile written there is the inner product of row p of the first
  block with row q of the second (the tile lemma), that is of row 1024·r + p of the first array with row
  1024·s + q of the second: entry (1024·r + p, 1024·s + q) of the Gram matrix of the two arrays. The 64 squares
  tile the 8192 × 8192 output, so after the run the output IS that Gram matrix.
-/
import proofs.«146786_j40200893890720_1_alg».proof.Proof.Gen.KernelIdeal.Value
import proofs.«146786_j40200893890720_1_alg».proof.Proof.KernelTile
import proofs.«146786_j40200893890720_1_alg».proof.Proof.RowGram
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.CosineRows
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The two operand arrays as the region finds them. -/
abbrev lhsArr (c : Dev nD) : FVec Ideal S8192x512 .bf16 := V m c main_v10
abbrev rhsArr (c : Dev nD) : FVec Ideal S8192x512 .bf16 := V m c main_v11

/-- The index maps over the grid: the first operand's block row is the output's block row, the second operand's
    block row is the output's block COLUMN, neither operand is cut along its rows' length, and the output's block
    indices stay below 8. -/
theorem index_maps : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every one of the 8 × 8 output squares is some point's. -/
theorem squares_onto : ∀ (r s : Fin 8), ∃ t : Fin cfg0.N, win0_2.index t = ![r.val, s.val] :=
  (by decide +kernel : ∀ (r s : Fin 8), ∃ t : Fin grid0.N, win0_2.index t = ![r.val, s.val])

/-- Row `p` of the first operand's block at point `t` is row `1024·r + p` of its array, `r` the output's block row. -/
theorem lhs_block (c : Dev nD) (t : Fin cfg0.N) (y : S1024x512.Idx) (i : S8192x512.Idx)
    (h0 : (i 0).val = win0_2.index t (0 : Fin 2) * 1024 + (y 0).val) (h1 : (i 1).val = (y 1).val) :
    (iblk m c 0 t : FVec Ideal S1024x512 .bf16) y = lhsArr m c i := by
  obtain ⟨e0, e1, -, -, -, -⟩ := index_maps t
  unfold iblk
  rw [View.read_apply]
  show V m c main_v10 _ = V m c main_v10 _
  congr 1
  funext a
  apply Fin.ext
  match a with
  | ⟨0, _⟩ => show win0_0.index t (0 : Fin 2) * 1024 + 1 * (y 0).val = (i 0).val; omega
  | ⟨1, _⟩ => show win0_0.index t (1 : Fin 2) * 512 + 1 * (y 1).val = (i 1).val; omega

/-- Row `q` of the second operand's block at point `t` is row `1024·s + q` of its array, `s` the output's block column. -/
theorem rhs_block (c : Dev nD) (t : Fin cfg0.N) (y : S1024x512.Idx) (i : S8192x512.Idx)
    (h0 : (i 0).val = win0_2.index t (1 : Fin 2) * 1024 + (y 0).val) (h1 : (i 1).val = (y 1).val) :
    (iblk m c 1 t : FVec Ideal S1024x512 .bf16) y = rhsArr m c i := by
  obtain ⟨-, -, e2, e3, -, -⟩ := index_maps t
  unfold iblk
  rw [View.read_apply]
  show V m c main_v11 _ = V m c main_v11 _
  congr 1
  funext a
  apply Fin.ext
  match a with
  | ⟨0, _⟩ => show win0_1.index t (0 : Fin 2) * 1024 + 1 * (y 0).val = (i 0).val; omega
  | ⟨1, _⟩ => show win0_1.index t (1 : Fin 2) * 512 + 1 * (y 1).val = (i 1).val; omega

/-- WHAT POINT `t` WRITES BACK is its square of the Gram matrix of the two operand arrays. -/
theorem flushed_eq (c : Dev nD) (t : Fin cfg0.N) :
    (dats m 0 c).flushed 2 t = ((cfg0.win 2).blk t).view.read (Elt Ideal) (rowGram (lhsArr m c) (rhsArr m c)) := by
  rw [Cert.KernelIdeal.Value.flushed2]
  unfold out0_2
  rw [View.canon_unit_zero origin]
  simp only [View.ld_unit_zero (S := S1024x512) origin]
  funext j
  show k0_pay1 (F := Ideal) (iblk m c 0 t) (iblk m c 1 t) j = rowGram (lhsArr m c) (rhsArr m c) (((cfg0.win 2).blk t).view.emb j)
  rw [eq_ix2 (n0 := 1024) (n1 := 1024) j]
  refine (Tile.tile_apply (iblk m c 0 t) (iblk m c 1 t) (j 0) (j 1)).trans ?_
  rw [rowGram_apply]
  refine Finset.sum_congr rfl fun k _ => ?_
  refine congrArg₂ (· * ·) (lhs_block m c t (ix2 (j 0) k) _ ?_ ?_) (rhs_block m c t (ix2 (j 1) k) _ ?_ ?_)
  · show win0_2.index t (0 : Fin 2) * 1024 + 1 * (j 0).val = win0_2.index t (0 : Fin 2) * 1024 + (j 0).val; omega
  · rfl
  · show win0_2.index t (1 : Fin 2) * 1024 + 1 * (j 1).val = win0_2.index t (1 : Fin 2) * 1024 + (j 1).val; omega
  · rfl

/-- An index of the output is in point `t`'s square iff each coordinate is in the square's range on its axis. -/
theorem mem_square (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v12).slice (win0_2.rect t)).set ↔ _
  rw [View.set_slice_whole, Rect.mem_set_unit]
  exact Iff.rfl

/-- The squares tile the output: entry (a, b) lies in the square of block row a / 1024 and block column b / 1024. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := squares_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_square]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE OUTPUT ARRAY after the run is the Gram matrix of the two operand arrays as the region found them. -/
theorem final (c : Dev nD) : (dats m 0 c).arrAt 2 cfg0.N = rowGram (lhsArr m c) (rhsArr m c) :=
  (dats m 0 c).arrAt_eq_of_cover 2 (rowGram (lhsArr m c) (rhsArr m c)) (fun t _ => flushed_eq m c t) covered

end Cert.KernelIdeal.Blocks

end
-- ==== Proof.KernelEntry.lean ====
/-
  What the region finds in its two operand arrays.

  Before the region the host divides each row of each argument by the larger of its norm and the floor, and narrows
  the quotient's format. The quotient is `unitRows` of the argument, operation for operation; on the extended reals
  a change of format is the identity. So the region's operand arrays are the two arguments with unit rows.
-/
import proofs.«146786_j40200893890720_1_alg».proof.Proof.Gen.KernelIdeal.Frame
import proofs.«146786_j40200893890720_1_alg».proof.Proof.RowGram
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo Cert.CosineRows

variable {F : FTy → Type} [FloatOps F]

/-- The kernel's row normalisation, with the kernel's evidence for the shape relations. -/
abbrev unit (x : FVec F S8192x512 .f32) : FVec F S8192x512 .f32 :=
  unitRows reducesTo_S8192x512_S8192_d1 h_S_ bcast_S8192_S8192x1_0 bcast_S_S8192x1 bcast_S8192x1_S8192x512_0_1 x

variable (m : (ℓ : Loc nD τ sig) → Buf (Elt Ideal) ℓ)

/-- The first operand array is the first argument with unit rows … -/
theorem lhs_entry (c : Dev nD) :
    (V m c main_v10 : FVec Ideal S8192x512 .bf16) = unit (F := Ideal) (m ((c : Thread nD τ).loc main_arg0)) := by
  dsimp only [V]
  simp only [hostOps0, hostOps0_1, hostOps0_2, hostOps0_3, List.flatten_cons, List.flatten_nil, List.append_nil, List.cons_append,
    List.nil_append]
  after_results
  rfl

/-- … and the second the second. -/
theorem rhs_entry (c : Dev nD) :
    (V m c main_v11 : FVec Ideal S8192x512 .bf16) = unit (F := Ideal) (m ((c : Thread nD τ).loc main_arg1)) := by
  dsimp only [V]
  simp only [hostOps0, hostOps0_1, hostOps0_2, hostOps0_3, List.flatten_cons, List.flatten_nil, List.append_nil, List.cons_append,
    List.nil_append]
  after_results
  rfl

end Cert.KernelIdeal.Entry

end
-- ==== Proof.ReferenceRows.lean ====
/-
  The reference, read as the specification.

  The reference divides each row of each argument by the larger of its norm and the floor, then contracts the two
  results over the row's 512 entries. Its two quotients are `unitRows` of the arguments, operation for operation;
  its contraction, on the extended reals, is at entry (i, j) the sum over k of the left quotient at (i, k) times the
  right quotient at (j, k): `rowGram`.
-/
import proofs.«146786_j40200893890720_1_alg».proof.Proof.Gen.ReferenceIdeal.Read
import proofs.«146786_j40200893890720_1_alg».proof.Proof.RowGram

noncomputable section

open scoped BigOperators

namespace Cert.ReferenceIdeal.Rows

open Cert.ReferenceIdeal Cert.ReferenceIdeal.Gen Cert.ReferenceIdeal.Read
open Idealize.ShloMosaic Idealize.ShloMosaic.ValueIdx Cert.CosineRows

variable {F : FTy → Type} [FloatOps F]

/-- The reference's row normalisation, with the reference's evidence for the shape relations. -/
abbrev unit (x : FVec F S8192x512 .f32) : FVec F S8192x512 .f32 :=
  unitRows reducesTo_S8192x512_S8192_d1 h_S_ bcast_S8192_S8192x1_0 bcast_S_S8192x1 bcast_S8192x1_S8192x512_0_1 x

/-- The first quotient is the first argument with unit rows … -/
theorem lhs_unit (x : FVec F S8192x512 .f32) : val_main_v4 (F := F) x = unit x := rfl
/-- … and the second the second. -/
theorem rhs_unit (x : FVec F S8192x512 .f32) : val_main_v9 (F := F) x = unit x := rfl

/-- The reference's result is the matrix of inner products of the unit rows. -/
theorem result_eq (x0 x1 : FVec Ideal S8192x512 .f32) :
    val_main_v10 (F := Ideal) x0 x1 = rowGram (unit x0) (unit x1) := by
  funext i
  rw [val_main_v10_apply, rowGram_apply, lhs_unit, rhs_unit]
  refine Finset.sum_congr rfl fun k _ => ?_
  have el : lidx_main_v10 i k = ix2 (i 0) k := funext fun a => by
    match a with
    | ⟨0, _⟩ => rfl
    | ⟨1, _⟩ => rfl
  have er : ridx_main_v10 i k = ix2 (i 1) k := funext fun a => by
    match a with
    | ⟨0, _⟩ => rfl
    | ⟨1, _⟩ => rfl
  rw [el, er]
  rfl

end Cert.ReferenceIdeal.Rows

end
-- ==== Proof.lean ====
/-
  Cosine similarity of every row of `x` with every row of `y` (8192 rows of 512 entries each), computed two ways.

  Both programs first give each argument unit rows: row i is divided by max(‖row i‖, floor), the norm the root of
  the row's sum of squares. The reference then contracts the two quotients over the row's length in one product; the
  kernel narrows their format (the identity on the extended reals) and covers the 8192 × 8192 result with an 8 × 8
  grid of 1024 × 1024 tiles, each the product of a block of 1024 unit rows of `x` with a block of 1024 unit rows of
  `y`, started from zero and contracted over the whole row at once.

  On the extended reals entry (i, j) of either result is the same finite sum  Σ_k u(i,k) · v(j,k)  over the same 512
  indices in the same arrangement, `u`, `v` the arguments with unit rows: a zero start adds nothing, and the tiling
  only says which point writes which entry. No law of arithmetic is needed beyond that, so the inputs' finiteness is
  never used. The ledger of the idealization's rewrites is empty, so the claim that it preserves the kernel states
  nothing to prove.
-/
import proofs.«146786_j40200893890720_1_alg».proof.Defs
import proofs.«146786_j40200893890720_1_alg».proof.Proof.Gen.Kernel
import proofs.«146786_j40200893890720_1_alg».proof.Proof.Gen.Kernel.Skeleton
import proofs.«146786_j40200893890720_1_alg».proof.Proof.Gen.Kernel.Launch
import proofs.«146786_j40200893890720_1_alg».proof.Proof.Gen.Kernel.Points
import proofs.«146786_j40200893890720_1_alg».proof.Proof.Gen.Kernel.Frame
import proofs.«146786_j40200893890720_1_alg».proof.Proof.Gen.KernelIdeal
import proofs.«146786_j40200893890720_1_alg».proof.Proof.Gen.KernelIdeal.Skeleton
import proofs.«146786_j40200893890720_1_alg».proof.Proof.Gen.KernelIdeal.Launch
import proofs.«146786_j40200893890720_1_alg».proof.Proof.Gen.KernelIdeal.Points
import proofs.«146786_j40200893890720_1_alg».proof.Proof.Gen.KernelIdeal.Frame
import proofs.«146786_j40200893890720_1_alg».proof.Proof.Gen.ReferenceIdeal
import proofs.«146786_j40200893890720_1_alg».proof.Proof.Gen.Pre_finite_inputs
import proofs.«146786_j40200893890720_1_alg».proof.Proof.Gen.KernelIdeal.Value
import proofs.«146786_j40200893890720_1_alg».proof.Proof.Gen.ReferenceIdeal.Run
import proofs.«146786_j40200893890720_1_alg».proof.Proof.Gen.ReferenceIdeal.Read
import proofs.«146786_j40200893890720_1_alg».proof.Proof.RowGram
import proofs.«146786_j40200893890720_1_alg».proof.Proof.KernelTile
import proofs.«146786_j40200893890720_1_alg».proof.Proof.KernelBlocks
import proofs.«146786_j40200893890720_1_alg».proof.Proof.KernelEntry
import proofs.«146786_j40200893890720_1_alg».proof.Proof.ReferenceRows
import Idealize.ShloMosaic.Adequacy
import Idealize.ShloMosaic.Init

noncomputable section

namespace Cert.Proof

open Idealize.ShloMosaic Idealize.ShloMosaic.TcCoe Idealize.SL.Sem Cert.CosineRows

/-- The idealized kernel's run: the result array ends at the Gram matrix of the two arguments with unit rows, the
    arguments unchanged. (The tiles cover the array; the operand arrays are the arguments with unit rows.) -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c : Thread Cert.KernelIdeal.nD Cert.KernelIdeal.τ).loc Cert.KernelIdeal.main_v12)
          = rowGram (Cert.KernelIdeal.Entry.unit (F := Ideal) (m ((c : Thread Cert.KernelIdeal.nD Cert.KernelIdeal.τ).loc Cert.KernelIdeal.main_arg0)))
              (Cert.KernelIdeal.Entry.unit (F := Ideal) (m ((c : Thread Cert.KernelIdeal.nD Cert.KernelIdeal.τ).loc Cert.KernelIdeal.main_arg1)))
        ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1) :=
  (θ_run Cert.KernelIdeal.defs _ _).mono
    (fun r h c => ⟨(h c).1.trans ((Cert.KernelIdeal.Blocks.final m c).trans
        (congrArg₂ rowGram (Cert.KernelIdeal.Entry.lhs_entry m c) (Cert.KernelIdeal.Entry.rhs_entry m c))), (h c).2⟩)
    (Cert.KernelIdeal.Value.run_blocks m ρ)

theorem frame_kernel : Cert.frame_Kernel := fun m ρ _ => Cert.Kernel.Gen.frame m ρ
theorem frame_kernel_ideal : Cert.frame_KernelIdeal := fun m ρ _ => Cert.KernelIdeal.Gen.frame m ρ
/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ledger of rewrites is empty: the conjunct is `True`. -/
theorem preserves : Cert.preserves_Kernel_KernelIdeal := trivial

/-- Both results are the Gram matrix of the arguments with unit rows; the two programs' evidence for the shape
    relations differs, the functions do not. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Rows.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
